-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x64 .f32) (main_arg1 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S1024x64 : Shape := ⟨2, ![1024, 64]⟩
abbrev S100000x64 : Shape := ⟨2, ![100000, 64]⟩
abbrev S64x1024 : Shape := ⟨2, ![64, 1024]⟩
abbrev S64x100000 : Shape := ⟨2, ![64, 100000]⟩
abbrev S100000x1024 : Shape := ⟨2, ![100000, 1024]⟩
abbrev S64x6144 : Shape := ⟨2, ![64, 6144]⟩
abbrev S6144x1024 : Shape := ⟨2, ![6144, 1024]⟩
abbrev S1024x100000 : Shape := ⟨2, ![1024, 100000]⟩

abbrev nBuf : Space → Nat
  | .hbm => 6
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S64x1024, .f32⟩
  | .hbm, ⟨3, _⟩ => ⟨S64x100000, .f32⟩
  | .hbm, ⟨4, _⟩ => ⟨S100000x1024, .f32⟩
  | .hbm, ⟨5, _⟩ => ⟨S1024x100000, .f32⟩
  | .local _ .vmem, ⟨0, _⟩ => ⟨S64x1024, .f32⟩
  | .local _ .vmem, ⟨1, _⟩ => ⟨S64x6144, .f32⟩
  | .local _ .vmem, ⟨2, _⟩ => ⟨S64x6144, .f32⟩
  | .local _ .vmem, ⟨3, _⟩ => ⟨S6144x1024, .f32⟩
  | .local _ .vmem, ⟨4, _⟩ => ⟨S6144x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S1024x64_S64x1024_1_0 : S1024x64.Transposes [1, 0] S64x1024
  transposes_S100000x64_S64x100000_1_0 : S100000x64.Transposes [1, 0] S64x100000
  inb_S64x6144_S64x6144_0_0 : ∀ a, (![0, 0] : Fin 2 → Nat) a + S64x6144.size a ≤ S64x6144.size a
  h_S64x6144 : 0 < S64x6144.numel
  shapeCasts_S64x6144_S64x6144 : S64x6144.ShapeCasts S64x6144
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S6144x1024_S6144x1024_0_0 : ∀ a, (![0, 0] : Fin 2 → Nat) a + S6144x1024.size a ≤ S6144x1024.size a
  h_S6144x1024 : 0 < S6144x1024.numel
  transposes_S100000x1024_S1024x100000_1_0 : S100000x1024.Transposes [1, 0] S1024x100000
  dot_S64x6144_S64x1024_S6144x1024_0_0_1_1_n_n_wf : DotDims.WF S64x6144 S64x1024 S6144x1024 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x6144.size a < S64x100000.size a
  hwx0_1 : ∀ i : grid0.Coords, EltTy.bits .f32 = 32 ∨ (Rect.unit (s := S64x100000) (fun a => cc0_transform_1 i a * S64x6144.size a) (fun a => (Pipeline.Clip.of (cc0_transform_1 i a) (S64x6144.size a) (S64x100000.size a)).extent (S64x6144.size a)) fun a => Pipeline.Clip.inb (Pipeline.Clip.ok_of (hstart0_1 i a))).WholeWords (EltTy.packing .f32)
  hwxs0_1 : ∀ i : grid0.Coords, EltTy.bits .f32 = 32 ∨ (Rect.unit (s := S64x6144) (fun _ => 0) (fun a => (Pipeline.Clip.of (cc0_transform_1 i a) (S64x6144.size a) (S64x100000.size a)).extent (S64x6144.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S6144x1024.size a < S100000x1024.size a
  hwx0_2 : ∀ i : grid0.Coords, EltTy.bits .f32 = 32 ∨ (Rect.unit (s := S100000x1024) (fun a => cc0_transform_2 i a * S6144x1024.size a) (fun a => (Pipeline.Clip.of (cc0_transform_2 i a) (S6144x1024.size a) (S100000x1024.size a)).extent (S6144x1024.size a)) fun a => Pipeline.Clip.inb (Pipeline.Clip.ok_of (hstart0_2 i a))).WholeWords (EltTy.packing .f32)
  hwxs0_2 : ∀ i : grid0.Coords, EltTy.bits .f32 = 32 ∨ (Rect.unit (s := S6144x1024) (fun _ => 0) (fun a => (Pipeline.Clip.of (cc0_transform_2 i a) (S6144x1024.size a) (S100000x1024.size a)).extent (S6144x1024.size a)) fun a => (Nat.zero_add _).trans_le (Pipeline.Clip.extent_le (Pipeline.Clip.ok_of (hstart0_2 i a)))).WholeWords (EltTy.packing .f32)

variable [Facts₀]

def dot_S64x6144_S64x1024_S6144x1024_0_0_1_1_n_n : DotDims S64x6144 S64x1024 S6144x1024 where
  lhsContracting := [0]
  rhsContracting := [0]
  lhsNonContracting := [1]
  rhsNonContracting := [1]
  lhsBatch := []
  rhsBatch := []
  wf := dot_S64x6144_S64x1024_S6144x1024_0_0_1_1_n_n_wf

abbrev win0_0 : Pipeline.Window sig grid0 :=
  Pipeline.Window.ofSpec (Memref.whole main_v0) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v1) S64x6144.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S6144x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64 : Shape := ⟨2, ![1024, 64]⟩
abbrev S100000x64 : Shape := ⟨2, ![100000, 64]⟩
abbrev S64x100000 : Shape := ⟨2, ![64, 100000]⟩
abbrev S1024x100000 : Shape := ⟨2, ![1024, 100000]⟩

abbrev nBuf : Space → Nat
  | .hbm => 4
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S64x100000, .f32⟩
  | .hbm, ⟨3, _⟩ => ⟨S1024x100000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S100000x64_S64x100000_1_0 : S100000x64.Transposes [1, 0] S64x100000
  dot_S1024x64_S64x100000_S1024x100000_1_0_0_1_n_n_wf : DotDims.WF S1024x64 S64x100000 S1024x100000 [1] [0] [0] [1] [] []

variable [Facts₀]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.Bits.Body.lean ====
/-
  The kernel body's run, for any float family: on whole staging buffers holding a 64×1024 block `x`, a
  64×6144 block `p` and anything in the 6144×1024 result buffer, the body loads both inputs whole, forms
  the product `pᵀ·x` into a zero accumulator (the payload `k0_pay1 p x`), reads the result buffer once
  without using what it read, and overwrites the result buffer whole with the product. The inputs' buffers
  are left as found.
-/
import proofs.«151957_g32152125178478_cont_8to1_b_1599_26_alg».proof.Proof.Gen.Kernel.Frame
import proofs.«151957_g32152125178478_cont_8to1_b_1599_26_alg».proof.Proof.Gen.Kernel.Skeleton
import Idealize.ShloMosaic.Lib.Pipeline.Value

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets, however spelt. -/
theorem offs_zero : (![0, 0] : Fin 2 → Nat) = fun _ => 0 := funext fun a => by fin_cases a <;> rfl

set_option maxHeartbeats 1000000 in
/-- The body's run: the result buffer ends at the product of the two input blocks, the input buffers unchanged. -/
theorem run (c : Dev nD) (E : Set ℕ) (i : grid0.Coords)
    (arg1 : Memref sig .tc .vmem S64x1024 .f32) (harg1 : arg1.IsWhole)
    (arg2 : Memref sig .tc .vmem S64x6144 .f32) (harg2 : arg2.IsWhole)
    (arg3 : Memref sig .tc .vmem S6144x1024 .f32) (harg3 : arg3.IsWhole)
    (x : Vec F S64x1024 .f32) (p : Vec F S64x6144 .f32) (K : PUnit → sProp 𝕄) :
    iprop(owns (c : Thread nD τ) arg1 fullShare x ∗ owns (c : Thread nD τ) arg2 fullShare p
        ∗ (∃ d, owns (c : Thread nD τ) arg3 fullShare d)
        ∗ (iprop(owns (c : Thread nD τ) arg1 fullShare x ∗ owns (c : Thread nD τ) arg2 fullShare p
              ∗ owns (c : Thread nD τ) arg3 fullShare (k0_pay1 p x)) -∗ K ⟨⟩))
      ⊢ wp frame (wpE (defs₀ (F := F)) Variants.none c none) E (cc0__logits_kernel i arg1 harg1 arg2 harg2 arg3 harg3) K := by
  simp only [cc0__logits_kernel_eq_skeleton]; unfold cc0__logits_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero offs_zero Facts₀.inb_S6144x1024_S6144x1024_0_0 y⟩),
    View.canon_unit_zero offs_zero]
  simp only [View.readAt_eq_ld, View.ld_unit_zero (S := S64x6144) offs_zero, View.ld_unit_zero (S := S64x1024) offs_zero]

end Cert.Kernel.Body

end
-- ==== Proof.Bits.Frame.lean ====
/-
  The frame of the program, for any float family, saying nothing of what the kernel computes. Every
  staging buffer is handed to the body at contents nothing names and taken back at contents nothing
  names, so the only facts used of the body are that it runs on whole buffers and touches nothing else.
  The argument arrays are staged by no window (the windows stage their transposes and the product), so
  they are among the buffers the region and the one host line after it (which writes only the result)
  leave as launched.
-/
import proofs.«151957_g32152125178478_cont_8to1_b_1599_26_alg».proof.Proof.Bits.Body

noncomputable section

namespace Cert.Kernel.Forget

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
def all : Fin 3 → Bool := fun _ => true

/-- Proof data that name nothing the body leaves: the arrays as the region finds them, every staging
    buffer after the body at contents nothing reads. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`: each current staging buffer at some contents; -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X))

/-- and what it hands back: the same. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (Cert.Kernel.Body.run c Set.univ (grid0.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The library's body obligation with every window forgotten. -/
theorem body_obligation (c : Dev nD) :
    BodyObligationLoose (dats (F := F) m 0 c) (defs₀ (F := F)) Variants.none () Set.univ all := fun t => by
  rw [bigSep_W0, bigSep_W0]
  exact sound_body m c t

/-- The one buffer the host line after the region writes. -/
def written : Finset (Ref sig .tc) := {main_v3}

theorem tail_writes : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  rw [written, Finset.mem_singleton]
  exact Proc.devRef_injective _ hb

set_option backward.isDefEq.respectTransparency.types false in
/-- Every weakly fair execution of @main terminates, nothing faulting, and every unscoped buffer that is
    neither a window's array nor the result is as the region found it. -/
theorem run_main : θ_run defs (onTc (τ := τ) (main (F := F))) (s₀ m ρ)
    (Pipeline.RDat.FramePostR (cfgs 0) (fun c => (dats m 0 c).toRForget all) written (V m)) :=
  Pipeline.RDat.θ_run_frame_around_T cfgs (0 : Fin 1) launch0 defs₀ Variants.none (fun c => (dats m 0 c).toRForget all) written m ρ main
    (hbody := fun c => (body_obligation m c).toRForget) (hshare := fun c => ((dats m 0 c).toRForget all).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim at any float family: the run ends and both argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.Kernel.Forget

end
-- ==== Proof.Ideal.Body.lean ====
/-
  The kernel body's run, for any float family: on whole staging buffers holding a 64×1024 block `x`, a
  64×6144 block `p` and anything in the 6144×1024 result buffer, the body loads both inputs whole, forms
  the product `pᵀ·x` into a zero accumulator (the payload `k0_pay1 p x`), reads the result buffer once
  without using what it read, and overwrites the result buffer whole with the product. The inputs' buffers
  are left as found.
-/
import proofs.«151957_g32152125178478_cont_8to1_b_1599_26_alg».proof.Proof.Gen.KernelIdeal.Frame
import proofs.«151957_g32152125178478_cont_8to1_b_1599_26_alg».proof.Proof.Gen.KernelIdeal.Skeleton
import Idealize.ShloMosaic.Lib.Pipeline.Value

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets, however spelt. -/
theorem offs_zero : (![0, 0] : Fin 2 → Nat) = fun _ => 0 := funext fun a => by fin_cases a <;> rfl

set_option maxHeartbeats 1000000 in
/-- The body's run: the result buffer ends at the product of the two input blocks, the input buffers unchanged. -/
theorem run (c : Dev nD) (E : Set ℕ) (i : grid0.Coords)
    (arg1 : Memref sig .tc .vmem S64x1024 .f32) (harg1 : arg1.IsWhole)
    (arg2 : Memref sig .tc .vmem S64x6144 .f32) (harg2 : arg2.IsWhole)
    (arg3 : Memref sig .tc .vmem S6144x1024 .f32) (harg3 : arg3.IsWhole)
    (x : Vec F S64x1024 .f32) (p : Vec F S64x6144 .f32) (K : PUnit → sProp 𝕄) :
    iprop(owns (c : Thread nD τ) arg1 fullShare x ∗ owns (c : Thread nD τ) arg2 fullShare p
        ∗ (∃ d, owns (c : Thread nD τ) arg3 fullShare d)
        ∗ (iprop(owns (c : Thread nD τ) arg1 fullShare x ∗ owns (c : Thread nD τ) arg2 fullShare p
              ∗ owns (c : Thread nD τ) arg3 fullShare (k0_pay1 p x)) -∗ K ⟨⟩))
      ⊢ wp frame (wpE (defs₀ (F := F)) Variants.none c none) E (cc0__logits_kernel i arg1 harg1 arg2 harg2 arg3 harg3) K := by
  simp only [cc0__logits_kernel_eq_skeleton]; unfold cc0__logits_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero offs_zero Facts₀.inb_S6144x1024_S6144x1024_0_0 y⟩),
    View.canon_unit_zero offs_zero]
  simp only [View.readAt_eq_ld, View.ld_unit_zero (S := S64x6144) offs_zero, View.ld_unit_zero (S := S64x1024) offs_zero]

end Cert.KernelIdeal.Body

end
-- ==== Proof.Ideal.Frame.lean ====
/-
  The frame of the program, for any float family, saying nothing of what the kernel computes. Every
  staging buffer is handed to the body at contents nothing names and taken back at contents nothing
  names, so the only facts used of the body are that it runs on whole buffers and touches nothing else.
  The argument arrays are staged by no window (the windows stage their transposes and the product), so
  they are among the buffers the region and the one host line after it (which writes only the result)
  leave as launched.
-/
import proofs.«151957_g32152125178478_cont_8to1_b_1599_26_alg».proof.Proof.Ideal.Body

noncomputable section

namespace Cert.KernelIdeal.Forget

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
def all : Fin 3 → Bool := fun _ => true

/-- Proof data that name nothing the body leaves: the arrays as the region finds them, every staging
    buffer after the body at contents nothing reads. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`: each current staging buffer at some contents; -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X))

/-- and what it hands back: the same. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (Cert.KernelIdeal.Body.run c Set.univ (grid0.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The library's body obligation with every window forgotten. -/
theorem body_obligation (c : Dev nD) :
    BodyObligationLoose (dats (F := F) m 0 c) (defs₀ (F := F)) Variants.none () Set.univ all := fun t => by
  rw [bigSep_W0, bigSep_W0]
  exact sound_body m c t

/-- The one buffer the host line after the region writes. -/
def written : Finset (Ref sig .tc) := {main_v3}

theorem tail_writes : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  rw [written, Finset.mem_singleton]
  exact Proc.devRef_injective _ hb

set_option backward.isDefEq.respectTransparency.types false in
/-- Every weakly fair execution of @main terminates, nothing faulting, and every unscoped buffer that is
    neither a window's array nor the result is as the region found it. -/
theorem run_main : θ_run defs (onTc (τ := τ) (main (F := F))) (s₀ m ρ)
    (Pipeline.RDat.FramePostR (cfgs 0) (fun c => (dats m 0 c).toRForget all) written (V m)) :=
  Pipeline.RDat.θ_run_frame_around_T cfgs (0 : Fin 1) launch0 defs₀ Variants.none (fun c => (dats m 0 c).toRForget all) written m ρ main
    (hbody := fun c => (body_obligation m c).toRForget) (hshare := fun c => ((dats m 0 c).toRForget all).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim at any float family: the run ends and both argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.KernelIdeal.Forget

end
-- ==== Proof.Ideal.Product.lean ====
/-
  The kernel body's product at an entry, over the extended reals. The body multiplies a 64×6144 block `p`
  and a 64×1024 block `x` along their FIRST axes into a zero accumulator, so entry (r, b) of the 6144×1024
  result is the 64-term sum  Σ_k p(k, r) · x(k, b):  row r of the result reads column r of `p` and nothing
  else of `p`.
-/
import proofs.«151957_g32152125178478_cont_8to1_b_1599_26_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Product

open Cert.KernelIdeal Cert.KernelIdeal.Gen Idealize.ShloMosaic Idealize.ShloMosaic.ValueIdx

/-- On the left operand the contracted axis is axis 0: its coordinate is the summation index; -/
theorem lhs_axis0 (i : S6144x1024.Idx) (q : dot_S64x6144_S64x1024_S6144x1024_0_0_1_1_n_n.contr.Idx) :
    (dot_S64x6144_S64x1024_S6144x1024_0_0_1_1_n_n.lhsIdx i q 0).val = (q ⟨0, by decide⟩).val :=
  dot_S64x6144_S64x1024_S6144x1024_0_0_1_1_n_n.lhsIdx_val_of_single rfl i q
/-- axis 1 is kept, and is the result's row. -/
theorem lhs_axis1 (i : S6144x1024.Idx) (q : dot_S64x6144_S64x1024_S6144x1024_0_0_1_1_n_n.contr.Idx) :
    (dot_S64x6144_S64x1024_S6144x1024_0_0_1_1_n_n.lhsIdx i q 1).val = (i 0).val := by
  unfold DotDims.lhsIdx
  rw [dif_neg (show ¬(1 : Fin S64x6144.rank) ∈ dot_S64x6144_S64x1024_S6144x1024_0_0_1_1_n_n.lhsBatch by decide), dif_pos (show (1 : Fin S64x6144.rank) ∈ dot_S64x6144_S64x1024_S6144x1024_0_0_1_1_n_n.lhsNonContracting by decide)]
  rfl
/-- On the right operand likewise: axis 0 is summed over, -/
theorem rhs_axis0 (i : S6144x1024.Idx) (q : dot_S64x6144_S64x1024_S6144x1024_0_0_1_1_n_n.contr.Idx) :
    (dot_S64x6144_S64x1024_S6144x1024_0_0_1_1_n_n.rhsIdx i q 0).val = (q ⟨0, by decide⟩).val :=
  dot_S64x6144_S64x1024_S6144x1024_0_0_1_1_n_n.rhsIdx_val_of_single rfl i q
/-- axis 1 is the result's column. -/
theorem rhs_axis1 (i : S6144x1024.Idx) (q : dot_S64x6144_S64x1024_S6144x1024_0_0_1_1_n_n.contr.Idx) :
    (dot_S64x6144_S64x1024_S6144x1024_0_0_1_1_n_n.rhsIdx i q 1).val = (i 1).val := by
  unfold DotDims.rhsIdx
  rw [dif_neg (show ¬(1 : Fin S64x1024.rank) ∈ dot_S64x6144_S64x1024_S6144x1024_0_0_1_1_n_n.rhsBatch by decide), dif_pos (show (1 : Fin S64x1024.rank) ∈ dot_S64x6144_S64x1024_S6144x1024_0_0_1_1_n_n.rhsNonContracting by decide)]
  rfl

/-- Entry (r, b) of the body's product is Σ_k p(k, r) · x(k, b). -/
theorem pay_apply (p : Vec Ideal S64x6144 .f32) (x : Vec Ideal S64x1024 .f32) (r : Fin 6144) (b : Fin 1024) :
    k0_pay1 (F := Ideal) p x (ix2 r b) = ∑ k : Fin 64, p (ix2 k r) * x (ix2 k b) := by
  unfold k0_pay1
  rw [shapeCast_self, shapeCast_self]
  refine (Ideal.matmul_constant_zero_apply dot_S64x6144_S64x1024_S6144x1024_0_0_1_1_n_n none p x (ix2 r b)).trans ?_
  rw [← Equiv.sum_comp (ValueIdx.contrEquiv1 dot_S64x6144_S64x1024_S6144x1024_0_0_1_1_n_n 64 rfl rfl).symm]
  refine Finset.sum_congr rfl fun k _ => ?_
  have hk := ValueIdx.contrEquiv1_symm_val dot_S64x6144_S64x1024_S6144x1024_0_0_1_1_n_n 64 rfl rfl k
  have el : dot_S64x6144_S64x1024_S6144x1024_0_0_1_1_n_n.lhsIdx (ix2 r b) ((ValueIdx.contrEquiv1 dot_S64x6144_S64x1024_S6144x1024_0_0_1_1_n_n 64 rfl rfl).symm k) = ix2 k r := funext fun a => Fin.ext (by
    match a with
    | ⟨0, _⟩ => exact (lhs_axis0 _ _).trans hk
    | ⟨1, _⟩ => exact lhs_axis1 _ _)
  have er : dot_S64x6144_S64x1024_S6144x1024_0_0_1_1_n_n.rhsIdx (ix2 r b) ((ValueIdx.contrEquiv1 dot_S64x6144_S64x1024_S6144x1024_0_0_1_1_n_n 64 rfl rfl).symm k) = ix2 k b := funext fun a => Fin.ext (by
    match a with
    | ⟨0, _⟩ => exact (rhs_axis0 _ _).trans hk
    | ⟨1, _⟩ => exact rhs_axis1 _ _)
  rw [el, er]

end Cert.KernelIdeal.Product

end
-- ==== Proof.Ideal.Spec.lean ====
/-
  What the kernel computes, as one function of the two arrays its region stages. With `P` the 64×100000
  array (the prototypes, transposed) and `X` the 64×1024 array (the queries, transposed), the region's
  100000×1024 result is
      G P X (j, b) = Σ_k P(k, j) · X(k, b),
  the inner product of prototype j with query b, over the extended reals.
-/
import proofs.«151957_g32152125178478_cont_8to1_b_1599_26_alg».proof.Proof.Gen.KernelIdeal
import Idealize.ShloMosaic.Lib.ValueIdx
import Idealize.ShloMosaic.PureOps.Ideal

noncomputable section

namespace Cert.KernelIdeal.Spec

open Cert.KernelIdeal Idealize.ShloMosaic Idealize.ShloMosaic.ValueIdx

/-- Entry (j, b): prototype j against query b. -/
def G (P : FVec Ideal S64x100000 .f32) (X : FVec Ideal S64x1024 .f32) : FVec Ideal S100000x1024 .f32 :=
  fun i => ∑ k : Fin 64, P (ix2 k (⟨(i 0).val, idx2_lt0 i⟩ : Fin 100000)) * X (ix2 k (⟨(i 1).val, idx2_lt1 i⟩ : Fin 1024))

/-- The same at an index given by its two coordinates. -/
theorem G_apply (P : FVec Ideal S64x100000 .f32) (X : FVec Ideal S64x1024 .f32) (j : Fin 100000) (b : Fin 1024) :
    G P X (ix2 j b) = ∑ k : Fin 64, P (ix2 k j) * X (ix2 k b) := rfl

end Cert.KernelIdeal.Spec

end
-- ==== Proof.Ideal.Grid.lean ====
/-
  The schedule's arithmetic over the 17 grid points. At point t the prototypes' window is at block (0, t)
  and the result's at block (t, 0); 100000 = 16 · 6144 + 1696, so on the long axis the transfers at points
  0 … 15 move all 6144 coordinates of a block and at point 16 only the first 1696, the part inside the
  array; on the other axes nothing is cut. Each fact is decided point by point.
-/
import proofs.«151957_g32152125178478_cont_8to1_b_1599_26_alg».proof.Proof.Gen.KernelIdeal.Points
import proofs.«151957_g32152125178478_cont_8to1_b_1599_26_alg».proof.Proof.Gen.KernelIdeal.Launch

noncomputable section

namespace Cert.KernelIdeal.Grid

open Cert.KernelIdeal Cert.KernelIdeal.Gen Idealize.ShloMosaic

/-- How many coordinates of the long axis the transfers at point `t` move. -/
def rows (t : Nat) : Nat := min 6144 (100000 - 6144 * t)

theorem N_eq : cfg0.N = 17 := N_0

/-- The queries' window sits at block (0, 0) throughout and is never cut. -/
theorem index0 : ∀ t : Fin cfg0.N, win0_0.index t 0 = 0 ∧ win0_0.index t 1 = 0 :=
  (by decide +kernel : ∀ t : Fin grid0.N, win0_0.index t 0 = 0 ∧ win0_0.index t 1 = 0)
theorem xsize0 : ∀ t : Fin cfg0.N, win0_0.xsize (grid0.coords t) 0 = 64 ∧ win0_0.xsize (grid0.coords t) 1 = 1024 :=
  (by decide +kernel : ∀ t : Fin grid0.N, win0_0.xsize (grid0.coords t) 0 = 64 ∧ win0_0.xsize (grid0.coords t) 1 = 1024)

/-- The prototypes' window at point t is at block (0, t), -/
theorem index1 : ∀ t : Fin cfg0.N, win0_1.index t 0 = 0 ∧ win0_1.index t 1 = t.val :=
  (by decide +kernel : ∀ t : Fin grid0.N, win0_1.index t 0 = 0 ∧ win0_1.index t 1 = t.val)
/-- all 64 rows of it moved and `rows t` of its columns. -/
theorem xsize1 : ∀ t : Fin cfg0.N, win0_1.xsize (grid0.coords t) 0 = 64 ∧ win0_1.xsize (grid0.coords t) 1 = rows t.val :=
  (by decide +kernel : ∀ t : Fin grid0.N, win0_1.xsize (grid0.coords t) 0 = 64 ∧ win0_1.xsize (grid0.coords t) 1 = rows t.val)

/-- The result's window at point t is at block (t, 0), -/
theorem index2 : ∀ t : Fin cfg0.N, win0_2.index t 0 = t.val ∧ win0_2.index t 1 = 0 :=
  (by decide +kernel : ∀ t : Fin grid0.N, win0_2.index t 0 = t.val ∧ win0_2.index t 1 = 0)
/-- `rows t` of its rows moved and all 1024 columns. -/
theorem xsize2 : ∀ t : Fin cfg0.N, win0_2.xsize (grid0.coords t) 0 = rows t.val ∧ win0_2.xsize (grid0.coords t) 1 = 1024 :=
  (by decide +kernel : ∀ t : Fin grid0.N, win0_2.xsize (grid0.coords t) 0 = rows t.val ∧ win0_2.xsize (grid0.coords t) 1 = 1024)

/-- The moved rows of block t end inside the array. -/
theorem rows_le (t : Nat) (ht : t < 17) : 6144 * t + rows t ≤ 100000 := by unfold rows; omega
/-- Every row of the array is a moved row of the block its quotient by 6144 names. -/
theorem rows_cover (r : Nat) (hr : r < 100000) : r / 6144 < 17 ∧ 6144 * (r / 6144) ≤ r ∧ r < 6144 * (r / 6144) + rows (r / 6144) := by
  unfold rows; omega

end Cert.KernelIdeal.Grid

end
-- ==== Proof.Ideal.Cover.lean ====
/-
  The result's blocks tile its array. Block t's part inside the array is rows 6144·t … 6144·t + rows t − 1,
  all 1024 columns; row r lies in block r / 6144, and every point writes its block back.
-/
import proofs.«151957_g32152125178478_cont_8to1_b_1599_26_alg».proof.Proof.Ideal.Grid
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-- An index of the result array is in block t's part inside the array iff its row is among the rows moved there. -/
theorem mem_blk2 (t : Fin cfg0.N) (i : S100000x1024.Idx) :
    i ∈ ((cfg0.win 2).blk t).view.set ↔ 6144 * t.val ≤ (i 0).val ∧ (i 0).val < 6144 * t.val + Grid.rows t.val := by
  -- the block's part inside the array is the rectangle at offsets (block index × block size) of the moved sizes
  show i ∈ ((View.whole main_v2).slice (win0_2.rect t)).set ↔ _
  rw [View.set_slice_whole, Rect.mem_set_unit]
  obtain ⟨h0, h1⟩ := Grid.index2 t
  obtain ⟨x0, x1⟩ := Grid.xsize2 t
  have hi1 : (i 1).val < 1024 := (i 1).isLt
  refine ⟨fun h => ?_, fun h a => ?_⟩
  · -- on the rows the rectangle starts at 6144 · t and has `rows t` rows
    have h' : win0_2.index t 0 * 6144 ≤ (i 0).val
        ∧ (i 0).val < win0_2.index t 0 * 6144 + win0_2.xsize (grid0.coords t) 0 := h 0
    rw [h0, x0] at h'
    omega
  · match a with
    | ⟨0, _⟩ =>
      show win0_2.index t 0 * 6144 ≤ (i 0).val
        ∧ (i 0).val < win0_2.index t 0 * 6144 + win0_2.xsize (grid0.coords t) 0
      rw [h0, x0]; omega
    | ⟨1, _⟩ =>
      -- on the columns it starts at 0 and spans all 1024: every column is inside
      show win0_2.index t 1 * 1024 ≤ (i 1).val
        ∧ (i 1).val < win0_2.index t 1 * 1024 + win0_2.xsize (grid0.coords t) 1
      rw [h1, x1]; omega

/-- Every index is in the block of some point, and that point writes back. -/
theorem cover2 (i : S100000x1024.Idx) : ∃ t : Fin cfg0.N, (cfg0.win 2).flush t = true ∧ i ∈ ((cfg0.win 2).blk t).view.set := by
  -- row r lies in block r / 6144: 6144 · (r / 6144) ≤ r < 6144 · (r / 6144) + rows (r / 6144)
  have hi : (i 0).val < 100000 := (i 0).isLt
  obtain ⟨hq, hlo, hhi⟩ := Grid.rows_cover (i 0).val hi
  exact ⟨⟨(i 0).val / 6144, by rw [Grid.N_eq]; exact hq⟩, flush0_2 _, (mem_blk2 _ i).mpr ⟨hlo, hhi⟩⟩

end Cert.KernelIdeal.Cover

end
-- ==== Proof.Ideal.Exact.lean ====
/-
  The idealized kernel's proof data with every staging buffer named, and the heart of the value proof.
  Write P for the 64×100000 array and X for the 64×1024 array the region stages, and G P X for the
  100000×1024 array of inner products (Spec). At grid point t the body is handed X whole and the block
  of P of columns 6144·t …, whose columns past the array's end (at the last point) hold values nothing
  names. Its product has, in row r, only column r of that block; the write-back moves only the rows
  inside the array; so what is written back is exactly block t of G P X, whatever filled the tail.
-/
import proofs.«151957_g32152125178478_cont_8to1_b_1599_26_alg».proof.Proof.Ideal.Body
import proofs.«151957_g32152125178478_cont_8to1_b_1599_26_alg».proof.Proof.Ideal.Product
import proofs.«151957_g32152125178478_cont_8to1_b_1599_26_alg».proof.Proof.Ideal.Spec
import proofs.«151957_g32152125178478_cont_8to1_b_1599_26_alg».proof.Proof.Ideal.Grid
import proofs.«151957_g32152125178478_cont_8to1_b_1599_26_alg».proof.Proof.Ideal.Cover

noncomputable section

namespace Cert.KernelIdeal.Exact

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The queries as the region finds them (64×1024), -/
abbrev xT (c : Dev nD) : FVec Ideal S64x1024 .f32 := V m c main_v0
/-- the prototypes as the region finds them (64×100000), -/
abbrev pT (c : Dev nD) : FVec Ideal S64x100000 .f32 := V m c main_v1
/-- and all their inner products (100000×1024). -/
abbrev prods (c : Dev nD) : FVec Ideal S100000x1024 .f32 := Spec.G (pT m c) (xT m c)

/-- Point t's block of the prototypes, its part inside the array (64 rows, the columns moved there), -/
def pblk (c : Dev nD) (t : Fin cfg0.N) : (win0_1.xblock (grid0.coords t)).Idx → Elt Ideal .f32 :=
  (win0_1.blk t).view.read (Elt Ideal) (pT m c)
/-- the queries' one block (all of them), -/
def xblk (c : Dev nD) (t : Fin cfg0.N) : S64x1024.Idx → Elt Ideal .f32 := iblk m c 0 t
/-- and point t's block of the inner products, its part inside the array. -/
def gblk (c : Dev nD) (t : Fin cfg0.N) : (win0_2.xblock (grid0.coords t)).Idx → Elt Ideal .f32 :=
  (win0_2.blk t).view.read (Elt Ideal) (prods m c)

/-- The zero word, as an extended real. -/
def zero : Elt Ideal .f32 := Scalar.ofBits (F := Ideal) .f32 0#32

/-! ## The proof data -/

/-- After the body at point t: the queries' buffer holds the queries; the prototypes' buffer its block,
    zero past the array's end; the result's buffer block t of the inner products, zero past the array's end. -/
def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => win0_1.fill (grid0.coords t) (fun _ => zero) (pblk m c t)
    | ⟨2, _⟩ => win0_2.fill (grid0.coords t) (fun _ => zero) (gblk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = xblk m c t := by dsimp only [dats]
theorem after1 (c : Dev nD) (t : Fin cfg0.N) :
    (dats m 0 c).after 1 t = win0_1.fill (grid0.coords t) (fun _ => zero) (pblk m c t) := by dsimp only [dats]
theorem after2 (c : Dev nD) (t : Fin cfg0.N) :
    (dats m 0 c).after 2 t = win0_2.fill (grid0.coords t) (fun _ => zero) (gblk m c t) := by dsimp only [dats]

/-- The queries' buffer holds the queries at every point (fetched once, left in place). -/
theorem before0 (c : Dev nD) (t : Fin cfg0.N) (d) : (dats m 0 c).before 0 t d = xblk m c t :=
  before0_0_of m (dats m 0 c) (A_eq m c 0) (after0 m c) t d

/-- The prototypes' buffer is fetched at every point: its block on the part inside the array, `d` past it. -/
theorem before1 (c : Dev nD) (t : Fin cfg0.N) (d) :
    (dats m 0 c).before 1 t d = win0_1.fill (grid0.coords t) d (pblk m c t) := by
  rw [Dat.before_fetched _ 1 t (fetch0_1 t) d]
  unfold Dat.fetched Dat.blockOf pblk
  rw [A_eq]

/-- The result's buffer is written back at every point, so the body finds in it contents nothing names. -/
theorem before2 (c : Dev nD) (t : Fin cfg0.N) (d) : (dats m 0 c).before 2 t d = d :=
  Dat.before_out_reset _ 2 rfl t (by
    by_cases ht : t.val = 0
    · exact .inl ht
    · exact .inr ⟨ht, flush0_2 _⟩) d

/-! ## Block t of the inner products -/

/-- An entry of the body's product, when column r of the block is column j of the prototypes: the inner
    product of prototype j with query b. -/
theorem prod_entry (P : Vec Ideal S64x6144 .f32) (X : Vec Ideal S64x1024 .f32)
    (Pa : FVec Ideal S64x100000 .f32) (Xa : FVec Ideal S64x1024 .f32)
    (r : Fin 6144) (b : Fin 1024) (j : Fin 100000)
    (hP : ∀ k : Fin 64, P (ix2 k r) = Pa (ix2 k j)) (hX : ∀ k : Fin 64, X (ix2 k b) = Xa (ix2 k b)) :
    k0_pay1 (F := Ideal) P X (ix2 r b) = Spec.G Pa Xa (ix2 j b) := by
  rw [Product.pay_apply, Spec.G_apply]
  exact Finset.sum_congr rfl fun k _ => by rw [hP k, hX k]

/-- The rows of the body's product that the write-back at point t moves are block t of the inner products,
    whatever the prototypes' buffer holds past the array's end. -/
theorem block_product (c : Dev nD) (t : Fin cfg0.N) (d : win0_1.block.Idx → Elt Ideal .f32) :
    win0_2.cut (grid0.coords t) (k0_pay1 (F := Ideal) (win0_1.fill (grid0.coords t) d (pblk m c t)) (xblk m c t))
      = gblk m c t := by
  funext j
  obtain ⟨hx20, hx21⟩ := Grid.xsize2 t
  obtain ⟨hx10, hx11⟩ := Grid.xsize1 t
  obtain ⟨hi20, hi21⟩ := Grid.index2 t
  obtain ⟨hi10, hi11⟩ := Grid.index1 t
  obtain ⟨hi00, hi01⟩ := Grid.index0 t
  have ht : t.val < 17 := lt_of_lt_of_eq t.isLt Grid.N_eq
  have hj0 : (j 0).val < Grid.rows t.val := by have := (j 0).isLt; rw [← hx20]; exact this
  have hj1 : (j 1).val < 1024 := by have := (j 1).isLt; rw [← hx21]; exact this
  have hr := Grid.rows_le t.val ht
  have hr6 : Grid.rows t.val ≤ 6144 := by unfold Grid.rows; omega
  -- the entry's coordinates: row (j 0) of the block, column (j 1); row 6144·t + (j 0) of the array
  have eL : win0_2.xinj (grid0.coords t) j = ix2 (⟨(j 0).val, by omega⟩ : Fin 6144) (⟨(j 1).val, hj1⟩ : Fin 1024) :=
    funext fun a => Fin.ext (by match a with | ⟨0, _⟩ => rfl | ⟨1, _⟩ => rfl)
  have eR : (win0_2.blk t).view.emb j = ix2 (⟨6144 * t.val + (j 0).val, by omega⟩ : Fin 100000) (⟨(j 1).val, hj1⟩ : Fin 1024) :=
    funext fun a => Fin.ext (by
      match a with
      | ⟨0, _⟩ => show win0_2.index t 0 * 6144 + 1 * (j 0).val = 6144 * t.val + (j 0).val; rw [hi20]; omega
      | ⟨1, _⟩ => show win0_2.index t 1 * 1024 + 1 * (j 1).val = (j 1).val; rw [hi21]; omega)
  show k0_pay1 (F := Ideal) _ _ (win0_2.xinj (grid0.coords t) j) = prods m c ((win0_2.blk t).view.emb j)
  rw [eL, eR]
  refine prod_entry _ _ _ _ _ _ _ (fun k => ?_) (fun k => ?_)
  · -- column (j 0) of the fetched block is a moved column: it is column 6144·t + (j 0) of the prototypes
    have hk : k.val < win0_1.xsize (grid0.coords t) 0 := by rw [hx10]; exact k.isLt
    have hr1 : (j 0).val < win0_1.xsize (grid0.coords t) 1 := by rw [hx11]; exact hj0
    let j1 : (win0_1.xblock (grid0.coords t)).Idx := fun a => match a with
      | ⟨0, _⟩ => ⟨k.val, hk⟩
      | ⟨1, _⟩ => ⟨(j 0).val, hr1⟩
    have e1 : ix2 k (⟨(j 0).val, by omega⟩ : Fin 6144) = win0_1.xinj (grid0.coords t) j1 :=
      funext fun a => Fin.ext (by match a with | ⟨0, _⟩ => rfl | ⟨1, _⟩ => rfl)
    rw [e1, Pipeline.Window.fill_xinj]
    show pT m c ((win0_1.blk t).view.emb j1) = _
    refine congrArg (pT m c) (funext fun a => Fin.ext ?_)
    match a with
    | ⟨0, _⟩ => show win0_1.index t 0 * 64 + 1 * k.val = k.val; rw [hi10]; omega
    | ⟨1, _⟩ => show win0_1.index t 1 * 6144 + 1 * (j 0).val = 6144 * t.val + (j 0).val; rw [hi11]; omega
  · -- the queries' one block is the whole array
    show xT m c ((win0_0.blk t).view.emb (ix2 k (⟨(j 1).val, hj1⟩ : Fin 1024))) = _
    refine congrArg (xT m c) (funext fun a => Fin.ext ?_)
    match a with
    | ⟨0, _⟩ => show win0_0.index t 0 * 64 + 1 * k.val = k.val; rw [hi00]; omega
    | ⟨1, _⟩ => show win0_0.index t 1 * 1024 + 1 * (j 1).val = (j 1).val; rw [hi01]; omega

/-! ## The body obligation -/

/-- What the body is called with at point t: the queries, the fetched block of prototypes (anything past the
    array's end), and a result buffer at contents nothing names; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back: the queries' buffer as named; the other two as named on the part their
    transfers move, anything past it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (Cert.KernelIdeal.Body.run (F := Ideal) c Set.univ (grid0.coords t) _ _ _ _ _ _ (xblk m c t)
    (win0_1.fill (grid0.coords t) d1 (pblk m c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · -- the prototypes' buffer is as fetched: its block on the moved part, the same tail
    iexists d1
    show _ ⊢ owns (c : Thread nD τ) (st0_1 t) fullShare
      (win0_1.fill (grid0.coords t) d1 (win0_1.cut (grid0.coords t) (win0_1.fill (grid0.coords t) (fun _ => zero) (pblk m c t))))
    rw [Pipeline.Window.cut_fill]
  · -- the result's buffer holds the product; its moved rows are block t of the inner products
    iexists (k0_pay1 (F := Ideal) (win0_1.fill (grid0.coords t) d1 (pblk m c t)) (xblk m c t))
    show _ ⊢ owns (c : Thread nD τ) (st0_2 t) fullShare
      (win0_2.fill (grid0.coords t) (k0_pay1 (F := Ideal) (win0_1.fill (grid0.coords t) d1 (pblk m c t)) (xblk m c t))
        (win0_2.cut (grid0.coords t) (win0_2.fill (grid0.coords t) (fun _ => zero) (gblk m c t))))
    rw [Pipeline.Window.cut_fill, ← block_product m c t d1, Pipeline.Window.fill_cut]

/-- The library's body obligation, each clipped window stated on the part its transfers move. -/
theorem body_obligation (c : Dev nD) :
    BodyObligationLoose (dats m 0 c) (defs₀ (F := Ideal)) Variants.none () Set.univ := fun t => by
  rw [bigSep_W0, bigSep_W0]
  exact sound_body m c t

/-! ## The run, and what the result array ends holding -/

set_option backward.isDefEq.respectTransparency.types false in
/-- Every weakly fair execution of @main terminates; the region's arrays end at what the proof data compute
    and every other unscoped buffer as the host line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- What point t writes back is block t of the inner products. -/
theorem flushed2 (c : Dev nD) (t : Fin cfg0.N) :
    (dats m 0 c).flushed 2 t = ((cfg0.win 2).blk t).view.read (Elt Ideal) (prods m c) := by
  show win0_2.cut (grid0.coords t) ((dats m 0 c).after 2 t) = _
  rw [after2, Pipeline.Window.cut_fill]
  rfl

/-- The blocks tile the array, so the result array ends holding all the inner products. -/
theorem final2 (c : Dev nD) : (dats m 0 c).arrAt 2 cfg0.N = prods m c :=
  (dats m 0 c).arrAt_eq_of_cover 2 (prods m c) (fun t _ => flushed2 m c t) Cover.cover2

end Cert.KernelIdeal.Exact

end
-- ==== Proof.Ideal.Host.lean ====
/-
  The host lines around the region, read as values. Before the region the two arguments are transposed
  into the arrays the windows stage; after it the region's 100000×1024 result is transposed into the
  program's 1024×100000 result.
-/
import proofs.«151957_g32152125178478_cont_8to1_b_1599_26_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The region finds the queries transposed, -/
theorem V_v0 (c : Dev nD) : (V m c main_v0 : S64x1024.Idx → Elt F .f32)
    = transpose S64x1024 [1, 0] (m ((c : Thread nD τ).loc main_arg0)) Facts₀.transposes_S1024x64_S64x1024_1_0 := by
  -- of the two lines before the region only the first writes this array: the transpose of the first argument
  show StableHlo.after hostOps0 (fun b => m (c, b)) (Proc.devRef .tc main_v0) = _
  after_results

/-- and the prototypes transposed. -/
theorem V_v1 (c : Dev nD) : (V m c main_v1 : S64x100000.Idx → Elt F .f32)
    = transpose S64x100000 [1, 0] (m ((c : Thread nD τ).loc main_arg1)) Facts₀.transposes_S100000x64_S64x100000_1_0 := by
  -- only the second line writes this array: the transpose of the second argument
  show StableHlo.after hostOps0 (fun b => m (c, b)) (Proc.devRef .tc main_v1) = _
  after_results

/-- The program's result is the transpose of what the region's result array holds after the last write-back. -/
theorem tail_v3 (dats : (p : Fin 1) → (c : Dev nD) → Dat τ (Elt F) Unit ℕ (UR sig nD τ) ℕ (cfgs p) c) (c : Dev nD) :
    (Pipeline.afterTail₀ cfgs dats 0 (V0 m) [hostOps1] c main_v3 : S1024x100000.Idx → Elt F .f32)
      = transpose S1024x100000 [1, 0] ((dats 0 c).arrAt 2 cfg0.N) Facts₀.transposes_S100000x1024_S1024x100000_1_0 := by
  unfold Pipeline.afterTail₀
  show StableHlo.after hostOps1 _ (Proc.devRef .tc main_v3) = _
  -- the one line after the region writes the transpose of the result array into the program's result;
  after_results
  -- and the result array is one of the region's arrays, so it holds what the region left in it
  exact congrArg (fun A => transpose S1024x100000 [1, 0] A Facts₀.transposes_S100000x1024_S1024x100000_1_0)
    (Pipeline.withArrays_arr spec0 launch0.win.arr_inj c (V0 m c) (fun w => (dats 0 c).arrAt w cfg0.N) (2 : Fin 3))

end Cert.KernelIdeal.Host

end
-- ==== Proof.Ideal.Final.lean ====
/-
  The idealized kernel's run with its result named. The region's result array ends holding every inner
  product of a prototype with a query (Exact.final2); the host line after the region transposes it; the
  host lines before the region made the arrays the region stages by transposing the arguments. So the
  program's 1024×100000 result is, as one function of the arguments x (queries) and p (prototypes),
      result x p (b, j) = Σ_k p(j, k) · x(b, k).
-/
import proofs.«151957_g32152125178478_cont_8to1_b_1599_26_alg».proof.Proof.Ideal.Exact
import proofs.«151957_g32152125178478_cont_8to1_b_1599_26_alg».proof.Proof.Ideal.Host

noncomputable section

namespace Cert.KernelIdeal.Final

open Cert.KernelIdeal Cert.KernelIdeal.Gen Idealize.ShloMosaic Idealize.ShloMosaic.TcCoe Idealize.SL.Sem

/-- Transpose both arguments, take all inner products, transpose back. -/
def result (x : FVec Ideal S1024x64 .f32) (p : FVec Ideal S100000x64 .f32) : FVec Ideal S1024x100000 .f32 :=
  transpose S1024x100000 [1, 0]
    (Spec.G (transpose S64x100000 [1, 0] p Facts₀.transposes_S100000x64_S64x100000_1_0)
            (transpose S64x1024 [1, 0] x Facts₀.transposes_S1024x64_S64x1024_1_0))
    Facts₀.transposes_S100000x1024_S1024x100000_1_0

/-- Every weakly fair execution of the idealized kernel terminates, nothing faulting, with the result at
    `result` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_⟩) (Exact.run_main m ρ)
  · refine ((h c).2 main_v3 (Pipeline.mem_restRefs_of main_v3 (by decide) (by decide))).trans ?_
    refine (Host.tail_v3 m (Exact.dats m) c).trans ?_
    rw [Exact.final2 m c]
    show transpose S1024x100000 [1, 0] (Spec.G (V m c main_v1) (V m c main_v0)) _ = _
    rw [Host.V_v0 m c, Host.V_v1 m c]
    unfold result
    rfl
  · exact ((h c).2 main_arg0 (Pipeline.mem_restRefs_of main_arg0 (by decide) (by decide))).trans (W_main_arg0 m (Exact.dats m) c)
  · exact ((h c).2 main_arg1 (Pipeline.mem_restRefs_of main_arg1 (by decide) (by decide))).trans (W_main_arg1 m (Exact.dats m) c)

end Cert.KernelIdeal.Final

end
-- ==== Proof.Ideal.Bridge.lean ====
/-
  The kernel's whole result against the reference's. Around its region the kernel transposes both
  arguments and transposes the region's result back, so with x the 1024×64 queries and p the 100000×64
  prototypes its result at (b, j) is  G pᵀ xᵀ (j, b) = Σ_k p(j, k) · x(b, k);  the reference's product
  x · pᵀ at (b, j) is  Σ_k x(b, k) · p(j, k).  The two agree term by term, multiplication of extended
  reals being commutative.
-/
import proofs.«151957_g32152125178478_cont_8to1_b_1599_26_alg».proof.Proof.Ideal.Spec
import proofs.«151957_g32152125178478_cont_8to1_b_1599_26_alg».proof.Proof.Gen.ReferenceIdeal.Read
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.TcCoe Idealize.SL.Sem Idealize.ShloMosaic.ValueIdx

/-- Transposed in, multiplied, transposed out: the reference's product. -/
theorem result_eq (x : FVec Ideal S1024x64 .f32) (p : FVec Ideal S100000x64 .f32) :
    transpose S1024x100000 [1, 0]
        (Spec.G (transpose S64x100000 [1, 0] p Facts₀.transposes_S100000x64_S64x100000_1_0)
                (transpose S64x1024 [1, 0] x Facts₀.transposes_S1024x64_S64x1024_1_0))
        Facts₀.transposes_S100000x1024_S1024x100000_1_0
      = Cert.ReferenceIdeal.Read.val_main_v1 (F := Ideal) x p := by
  funext i
  obtain ⟨b, j, rfl⟩ : ∃ (b : Fin 1024) (j : Fin 100000), i = ix2 b j := ⟨i 0, i 1, eq_ix2 i⟩
  refine (transpose_apply [1, 0] _ Facts₀.transposes_S100000x1024_S1024x100000_1_0 (ix2 b j) (ix2 j b)
    (fun a => match a with | ⟨0, _⟩ => rfl | ⟨1, _⟩ => rfl)).trans ?_
  rw [Spec.G_apply, Cert.ReferenceIdeal.Read.val_main_v1_apply]
  refine Finset.sum_congr rfl fun k _ => ?_
  rw [Cert.ReferenceIdeal.Read.val_main_v0_apply]
  rw [transpose_apply [1, 0] p Facts₀.transposes_S100000x64_S64x100000_1_0 (ix2 k j) (ix2 j k)
    (fun a => match a with | ⟨0, _⟩ => rfl | ⟨1, _⟩ => rfl)]
  rw [transpose_apply [1, 0] x Facts₀.transposes_S1024x64_S64x1024_1_0 (ix2 k b) (ix2 b k)
    (fun a => match a with | ⟨0, _⟩ => rfl | ⟨1, _⟩ => rfl)]
  have e1 : Cert.ReferenceIdeal.Read.lidx_main_v1 (ix2 b j) k = ix2 b k :=
    funext fun a => Fin.ext (by match a with | ⟨0, _⟩ => rfl | ⟨1, _⟩ => rfl)
  have e2 : Cert.ReferenceIdeal.Read.idx_main_v0 (Cert.ReferenceIdeal.Read.ridx_main_v1 (ix2 b j) k) = ix2 j k :=
    funext fun a => Fin.ext (by match a with | ⟨0, _⟩ => rfl | ⟨1, _⟩ => rfl)
  rw [e1, e2]
  exact mul_comm _ _

end Cert.KernelIdeal.Bridge

end
-- ==== Proof.lean ====
/-
  The kernel computes similarity logits  out = x · protoᵀ  for 1024 queries x and 100000 prototypes of
  dimension 64, in transposed orientation: it transposes both arguments, runs a 17-point grid whose point t
  multiplies the 6144-column block t of protoᵀ against all of xᵀ into rows 6144·t … of a 100000×1024 array
  (the last block overhangs the array by 4448 columns: its fetch is cut at the array's end and so is its
  write-back), and transposes the result. The reference is jnp's  x @ proto.T.

  The three frames. The reference's is its run with the result dropped. The two kernels' (the printed
  program read word for word, and read over the extended reals) are proved once for any float family,
  saying nothing of what the body computes (Bits/Frame, Ideal/Frame): at the word level the product of a
  block whose tail holds unnamed words is itself unnamed, and the frame does not need it.

  The value claim. Over the extended reals entry (r, b) of the body's product reads only column r of the
  prototypes' block (Ideal/Product), so the rows the cut write-back moves are exactly the block of
  G(j, b) = Σ_k protoᵀ(k, j) · xᵀ(k, b)  whatever the tail held (Ideal/Exact); the blocks tile the array
  (Ideal/Cover); around the region the transposes are read as values (Ideal/Host); and the transposed G is
  the reference's product entry by entry, by commutativity of multiplication (Ideal/Bridge). No finiteness
  of the inputs is used. The idealized kernel is the printed kernel's own text read over the extended reals
  (no operation was rewritten), so the conjunct relating the two is trivially true.
-/
import proofs.«151957_g32152125178478_cont_8to1_b_1599_26_alg».proof.Proof.Bits.Frame
import proofs.«151957_g32152125178478_cont_8to1_b_1599_26_alg».proof.Proof.Ideal.Frame
import proofs.«151957_g32152125178478_cont_8to1_b_1599_26_alg».proof.Proof.Ideal.Final
import proofs.«151957_g32152125178478_cont_8to1_b_1599_26_alg».proof.Proof.Ideal.Bridge
import proofs.«151957_g32152125178478_cont_8to1_b_1599_26_alg».proof.Defs
import proofs.«151957_g32152125178478_cont_8to1_b_1599_26_alg».proof.Proof.Gen.ReferenceIdeal.Run
import proofs.«151957_g32152125178478_cont_8to1_b_1599_26_alg».proof.Proof.Gen.ReferenceIdeal.Read
import proofs.«151957_g32152125178478_cont_8to1_b_1599_26_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs to the end, nothing faulting, its arguments unchanged. -/
theorem frame_kernel : Cert.frame_Kernel := fun m ρ _ => Cert.Kernel.Forget.frame m ρ

/-- So does the kernel read over the extended reals. -/
theorem frame_kernelIdeal : Cert.frame_KernelIdeal := fun m ρ _ => Cert.KernelIdeal.Forget.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten in its idealization: there is nothing to state. -/
theorem preserves : Cert.preserves_Kernel_KernelIdeal := trivial

/-- Over the extended reals the kernel's result and the reference's are one function of the arguments:
    Σ_k proto(j, k) · x(b, k)  against  Σ_k x(b, k) · proto(j, k). -/
theorem algebraic : Cert.algebraic_KernelIdeal_ReferenceIdeal := by
  intro m ρ m' ρ' _ hagree
  refine ⟨fun c => Cert.KernelIdeal.Final.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v1_eq]
  exact (Cert.KernelIdeal.Bridge.result_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
